-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 36
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«140270_j14499809592153_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibSage.lean ====
/-
  A mean-aggregating graph layer over the extended reals, for any extents: the dense layer max (A · Wl + X · Wr + b, 0)
  and the output projection H · Wo + bo as whole-array functions (`layerFn`, `outFn`), their host spelling
  (`host_layer`, `host_out`: dot_general, a bias broadcast from a vector, relu) and their block-body spelling
  (`block_layer`, `block_out`: operands narrowed to sixteen bits, products into zeros, a one-row bias), row locality
  (`layerAt_row`, `outAt_row`), and the mean by division against the mean by the reciprocal (`mean_div_eq_mul`,
  over `count_real`: a guarded count of scattered ones is a nonzero real).

  The arithmetic both programs share.

  A layer takes, for every node n, the mean A[n, :] of its in-neighbours' features and its own features X[n, :], and
  returns  max (A[n, :] · Wl + X[n, :] · Wr + b, 0);  the output projection returns  H[n, :] · Wo + bo.  Every entry of
  a layer's result depends on ONE row of A and of X, so the same formula describes a block of rows and the whole array.
  One program adds the bias before the second product and the other after it: addition of extended reals is commutative
  and associative, so the two orders agree at the infinities too.

  The mean divides each aggregated row by c[n] = max (number of edges into n, 1).  The count is a finite sum of ones, a
  real number, so c[n] is a real number that is at least 1; dividing an extended real by a nonzero real IS multiplying it
  by the reciprocal, so  a / c[n] = a · (1 / c[n])  for every extended real a.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«140270_j14499809592153_1_alg».proof.Proof.LibFinite
import proofs.«140270_j14499809592153_1_alg».proof.Proof.LibConsts
import proofs.«140270_j14499809592153_1_alg».proof.Proof.LibDotSum

noncomputable section

namespace Cert.Sage

open Idealize.ShloMosaic Idealize.ShloMosaic.ValueIdx Cert.LibFinite
open scoped BigOperators

variable {M K N : Nat}

/-! ## The layer and the output projection, entry by entry -/

/-- Entry (r, j) of a layer: the two row-by-column products, the bias, the positive part. -/
def layerAt (A X : (⟨2, ![M, K]⟩ : Shape).Idx → EReal) (Wl Wr : (⟨2, ![K, N]⟩ : Shape).Idx → EReal)
    (b : Fin N → EReal) (r : Fin M) (j : Fin N) : EReal :=
  max (((∑ k : Fin K, A (ix2 r k) * Wl (ix2 k j)) + ∑ k : Fin K, X (ix2 r k) * Wr (ix2 k j)) + b j) 0

/-- A layer as one array. -/
def layerFn (A X : (⟨2, ![M, K]⟩ : Shape).Idx → EReal) (Wl Wr : (⟨2, ![K, N]⟩ : Shape).Idx → EReal)
    (b : Fin N → EReal) : (⟨2, ![M, N]⟩ : Shape).Idx → EReal :=
  fun i => layerAt A X Wl Wr b (i 0) (i 1)

theorem layerFn_ix2 (A X : (⟨2, ![M, K]⟩ : Shape).Idx → EReal) (Wl Wr : (⟨2, ![K, N]⟩ : Shape).Idx → EReal)
    (b : Fin N → EReal) (r : Fin M) (j : Fin N) : layerFn A X Wl Wr b (ix2 r j) = layerAt A X Wl Wr b r j := rfl

/-- Entry (r, j) of the output projection. -/
def outAt (H : (⟨2, ![M, K]⟩ : Shape).Idx → EReal) (Wo : (⟨2, ![K, N]⟩ : Shape).Idx → EReal) (bo : Fin N → EReal)
    (r : Fin M) (j : Fin N) : EReal :=
  (∑ k : Fin K, H (ix2 r k) * Wo (ix2 k j)) + bo j

/-- The output projection as one array. -/
def outFn (H : (⟨2, ![M, K]⟩ : Shape).Idx → EReal) (Wo : (⟨2, ![K, N]⟩ : Shape).Idx → EReal) (bo : Fin N → EReal) :
    (⟨2, ![M, N]⟩ : Shape).Idx → EReal :=
  fun i => outAt H Wo bo (i 0) (i 1)

theorem outFn_ix2 (H : (⟨2, ![M, K]⟩ : Shape).Idx → EReal) (Wo : (⟨2, ![K, N]⟩ : Shape).Idx → EReal) (bo : Fin N → EReal)
    (r : Fin M) (j : Fin N) : outFn H Wo bo (ix2 r j) = outAt H Wo bo r j := rfl

/-- Row r of a block is row n of the array: a layer's entry in that row is the same number. -/
theorem layerAt_row {Mb : Nat} (Ab Xb : (⟨2, ![Mb, K]⟩ : Shape).Idx → EReal) (A X : (⟨2, ![M, K]⟩ : Shape).Idx → EReal)
    (Wlb Wrb Wl Wr : (⟨2, ![K, N]⟩ : Shape).Idx → EReal) (bb b : Fin N → EReal) (r : Fin Mb) (n : Fin M)
    (hA : ∀ k, Ab (ix2 r k) = A (ix2 n k)) (hX : ∀ k, Xb (ix2 r k) = X (ix2 n k))
    (hWl : ∀ k j, Wlb (ix2 k j) = Wl (ix2 k j)) (hWr : ∀ k j, Wrb (ix2 k j) = Wr (ix2 k j)) (hb : ∀ j, bb j = b j)
    (j : Fin N) : layerAt Ab Xb Wlb Wrb bb r j = layerAt A X Wl Wr b n j := by
  unfold layerAt
  rw [hb j]
  simp only [hA, hX, hWl, hWr]

/-- The same for the output projection. -/
theorem outAt_row {Mb : Nat} (Hb : (⟨2, ![Mb, K]⟩ : Shape).Idx → EReal) (H : (⟨2, ![M, K]⟩ : Shape).Idx → EReal)
    (Wob Wo : (⟨2, ![K, N]⟩ : Shape).Idx → EReal) (bob bo : Fin N → EReal) (r : Fin Mb) (n : Fin M)
    (hH : ∀ k, Hb (ix2 r k) = H (ix2 n k)) (hWo : ∀ k j, Wob (ix2 k j) = Wo (ix2 k j)) (hb : ∀ j, bob j = bo j)
    (j : Fin N) : outAt Hb Wob bob r j = outAt H Wo bo n j := by
  unfold outAt
  rw [hb j]
  simp only [hH, hWo]

/-! ## Bias rows and the zero splat read at an index -/

/-- A length-N vector laid out as one row and repeated down M rows reads, at (r, j), its entry j. -/
theorem bias_apply {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (j : Fin N) :
    broadcastInDim ⟨2, ![M, N]⟩ ![0, 1] h2 (broadcastInDim ⟨2, ![1, N]⟩ ![1] h1 v) (ix2 r j) = v (ix1 j) := by
  rw [broadcastInDim_apply ![0, 1] h2 _ (ix2 r j) (ix2 (0 : Fin 1) j) (fun ax => by
    match ax with
    | ⟨0, _⟩ => rfl
    | ⟨1, _⟩ =>
      show j.val = if N = 1 then 0 else j.val
      split
      · have := j.isLt; omega
      · rfl)]
  exact broadcastInDim_apply ![1] h1 v (ix2 (0 : Fin 1) j) (ix1 j) (fun ax => by
    match ax with
    | ⟨0, _⟩ =>
      show j.val = if N = 1 then 0 else j.val
      split
      · have := j.isLt; omega
      · rfl)

/-! ## The host's spelling of a layer and of the output projection -/

section Host

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (h1 : (⟨1, ![N]⟩ : Shape).BroadcastsInDim ⟨2, ![1, N]⟩ ![1])
  (h2 : (⟨2, ![1, N]⟩ : Shape).BroadcastsInDim ⟨2, ![M, N]⟩ ![0, 1])
  (h0 : (⟨0, ![]⟩ : Shape).BroadcastsInDim ⟨2, ![M, N]⟩ ![])

include hlc hrc hln hrn hlb hrb in
/-- (A · Wl + b) + X · Wr, then the positive part: the layer, the bias moved past the second product. -/
theorem host_layer (A X : FVec Ideal ⟨2, ![M, K]⟩ .f32) (Wl Wr : FVec Ideal ⟨2, ![K, N]⟩ .f32)
    (bv : FVec Ideal ⟨1, ![N]⟩ .f32) :
    maximumf (addf (addf (Host.dotGeneral d none A Wl)
        (broadcastInDim ⟨2, ![M, N]⟩ ![0, 1] h2 (broadcastInDim ⟨2, ![1, N]⟩ ![1] h1 bv)))
        (Host.dotGeneral d none X Wr))
      (broadcastInDim ⟨2, ![M, N]⟩ ![] h0 (constant ⟨0, ![]⟩ .f32 0x00000000#32))
    = layerFn A X Wl Wr (fun j => bv (ix1 j)) := by
  funext i
  obtain ⟨r, j, rfl⟩ : ∃ (r : Fin M) (j : Fin N), i = ix2 r j := ⟨i 0, i 1, eq_ix2 i⟩
  show max ((Host.dotGeneral d none A Wl (ix2 r j)
      + broadcastInDim ⟨2, ![M, N]⟩ ![0, 1] h2 (broadcastInDim ⟨2, ![1, N]⟩ ![1] h1 bv) (ix2 r j))
      + Host.dotGeneral d none X Wr (ix2 r j)) (Ideal.ofBits .f32 0x00000000#32) = layerAt A X Wl Wr (fun j => bv (ix1 j)) r j
  rw [Cert.Lib.dotGeneral_rc_apply d hlc hrc hln hrn hlb hrb, Cert.Lib.dotGeneral_rc_apply d hlc hrc hln hrn hlb hrb,
    bias_apply, Cert.LibConsts.ofBits_zero]
  unfold layerAt
  rw [add_right_comm]

include hlc hrc hln hrn hlb hrb in
/-- H · Wo + bo: the output projection. -/
theorem host_out (H : FVec Ideal ⟨2, ![M, K]⟩ .f32) (Wo : FVec Ideal ⟨2, ![K, N]⟩ .f32) (bv : FVec Ideal ⟨1, ![N]⟩ .f32) :
    addf (Host.dotGeneral d none H Wo)
      (broadcastInDim ⟨2, ![M, N]⟩ ![0, 1] h2 (broadcastInDim ⟨2, ![1, N]⟩ ![1] h1 bv))
    = outFn H Wo (fun j => bv (ix1 j)) := by
  funext i
  obtain ⟨r, j, rfl⟩ : ∃ (r : Fin M) (j : Fin N), i = ix2 r j := ⟨i 0, i 1, eq_ix2 i⟩
  show Host.dotGeneral d none H Wo (ix2 r j)
      + broadcastInDim ⟨2, ![M, N]⟩ ![0, 1] h2 (broadcastInDim ⟨2, ![1, N]⟩ ![1] h1 bv) (ix2 r j) = outAt H Wo (fun j => bv (ix1 j)) r j
  rw [Cert.Lib.dotGeneral_rc_apply d hlc hrc hln hrn hlb hrb, bias_apply]
  rfl

end Host

/-! ## A block body's spelling of a layer and of the output projection -/

section Block

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (hb : (⟨2, ![1, N]⟩ : Shape).Broadcasts ⟨2, ![M, N]⟩)

include hlc hrc hln hrn hlb hrb in
/-- (A · Wl + X · Wr) + b, then the positive part, the four operands narrowed to sixteen bits first (no change over
    the extended reals) and each product accumulated into zeros. -/
theorem block_layer (hbits : FTy.bf16.bits < FTy.f32.bits) (A X : FVec Ideal ⟨2, ![M, K]⟩ .f32) (Wl Wr : FVec Ideal ⟨2, ![K, N]⟩ .f32)
    (b : FVec Ideal ⟨2, ![1, N]⟩ .f32) :
    maximumf (addf (addf
        (matmul d none (truncf .bf16 A hbits) (truncf .bf16 Wl hbits) (constant ⟨2, ![M, N]⟩ .f32 0x00000000#32))
        (matmul d none (truncf .bf16 X hbits) (truncf .bf16 Wr hbits) (constant ⟨2, ![M, N]⟩ .f32 0x00000000#32)))
        (broadcastTo ⟨2, ![M, N]⟩ b hb))
      (broadcast ⟨2, ![M, N]⟩ (Scalar.ofBits (F := Ideal) .f32 0x00000000#32))
    = layerFn A X Wl Wr (fun j => b (ix2 (0 : Fin 1) j)) := by
  funext i
  obtain ⟨r, j, rfl⟩ : ∃ (r : Fin M) (j : Fin N), i = ix2 r j := ⟨i 0, i 1, eq_ix2 i⟩
  show max ((matmul d none (truncf .bf16 A hbits) (truncf .bf16 Wl hbits) (constant ⟨2, ![M, N]⟩ .f32 0x00000000#32) (ix2 r j)
      + matmul d none (truncf .bf16 X hbits) (truncf .bf16 Wr hbits) (constant ⟨2, ![M, N]⟩ .f32 0x00000000#32) (ix2 r j))
      + broadcastTo ⟨2, ![M, N]⟩ b hb (ix2 r j)) (Ideal.ofBits .f32 0x00000000#32) = layerAt A X Wl Wr (fun j => b (ix2 (0 : Fin 1) j)) r j
  rw [Cert.Lib.matmul_rc_apply d hlc hrc hln hrn hlb hrb, Cert.Lib.matmul_rc_apply d hlc hrc hln hrn hlb hrb,
    broadcastTo_1b_ab_apply, Cert.LibConsts.ofBits_zero]
  rfl

include hlc hrc hln hrn hlb hrb in
/-- H · Wo + bo with H and Wo narrowed first and the product accumulated into zeros. -/
theorem block_out (hbits : FTy.bf16.bits < FTy.f32.bits) (H : FVec Ideal ⟨2, ![M, K]⟩ .f32) (Wo : FVec Ideal ⟨2, ![K, N]⟩ .f32)
    (b : FVec Ideal ⟨2, ![1, N]⟩ .f32) :
    addf (matmul d none (truncf .bf16 H hbits) (truncf .bf16 Wo hbits) (constant ⟨2, ![M, N]⟩ .f32 0x00000000#32))
      (broadcastTo ⟨2, ![M, N]⟩ b hb)
    = outFn H Wo (fun j => b (ix2 (0 : Fin 1) j)) := by
  funext i
  obtain ⟨r, j, rfl⟩ : ∃ (r : Fin M) (j : Fin N), i = ix2 r j := ⟨i 0, i 1, eq_ix2 i⟩
  show matmul d none (truncf .bf16 H hbits) (truncf .bf16 Wo hbits) (constant ⟨2, ![M, N]⟩ .f32 0x00000000#32) (ix2 r j)
      + broadcastTo ⟨2, ![M, N]⟩ b hb (ix2 r j) = outAt H Wo (fun j => b (ix2 (0 : Fin 1) j)) r j
  rw [Cert.Lib.matmul_rc_apply d hlc hrc hln hrn hlb hrb, broadcastTo_1b_ab_apply]
  rfl

end Block

/-! ## The in-degree, and the mean by division and by the reciprocal -/

/-- max (number of updates landing on n, 1) is a real number other than zero: ones accumulated into zeros. -/
theorem count_real {sN sE1 sE : Shape} {w : Nat} (sc : ScatterDims sN sE1 sE) (idx : IVec sE1 w)
    (Z One : FVec Ideal sN .f32) (O : FVec Ideal sE .f32) (hZ : ∀ n, Z n = 0) (hO : ∀ j, O j = 1)
    (hOne : ∀ n, One n = 1) (n : sN.Idx) :
    ∃ r : ℝ, r ≠ 0 ∧ maximumf (Host.scatterAdd sc Z idx O) One n = (r : EReal) := by
  have hs : IsFin (Host.scatterAdd sc Z idx O n) := by
    show IsFin (Z n + ∑ j ∈ Finset.univ.filter (fun j => sc.resultIdx? j idx = some n), O j)
    rw [hZ]
    exact isFin_zero.add (isFin_sum _ _ fun j _ => by rw [hO]; exact isFin_one)
  obtain ⟨a, ha⟩ := isFin_iff.mp hs
  refine ⟨max a 1, (lt_of_lt_of_le one_pos (le_max_right a 1)).ne', ?_⟩
  show max (Host.scatterAdd sc Z idx O n) (One n) = _
  rw [ha, hOne, ← EReal.coe_one]
  exact (EReal.coe_strictMono.monotone.map_max).symm

/-- Two broadcasts in a row read their operand at one index. -/
theorem bcast2_reads {sN sN1 sNW : Shape} {d1 : Fin sN.rank → Fin sN1.rank} (h1 : sN.BroadcastsInDim sN1 d1)
    {d2 : Fin sN1.rank → Fin sNW.rank} (h2 : sN1.BroadcastsInDim sNW d2) :
    ∃ π : sNW.Idx → sN.Idx, ∀ (v : sN.Idx → EReal) (i : sNW.Idx),
      broadcastInDim sNW d2 h2 (broadcastInDim sN1 d1 h1 v) i = v (π i) :=
  ⟨_, fun _ _ => rfl⟩

/-- Dividing the aggregate by the guarded in-degree is multiplying it by the guarded in-degree's reciprocal. -/
theorem mean_div_eq_mul {s0 sN sN1 sNW sE1 sE : Shape} {w : Nat} (sc : ScatterDims sN sE1 sE) (idx : IVec sE1 w)
    {d0N : Fin s0.rank → Fin sN.rank} (h0N : s0.BroadcastsInDim sN d0N)
    {d0E : Fin s0.rank → Fin sE.rank} (h0E : s0.BroadcastsInDim sE d0E)
    {d1 : Fin sN.rank → Fin sN1.rank} (h1 : sN.BroadcastsInDim sN1 d1)
    {d2 : Fin sN1.rank → Fin sNW.rank} (h2 : sN1.BroadcastsInDim sNW d2) (agg : FVec Ideal sNW .f32) :
    Host.divf agg (broadcastInDim sNW d2 h2 (broadcastInDim sN1 d1 h1
      (maximumf (Host.scatterAdd sc (broadcastInDim sN d0N h0N (constant s0 .f32 0x00000000#32)) idx
          (broadcastInDim sE d0E h0E (constant s0 .f32 0x3F800000#32)))
        (broadcastInDim sN d0N h0N (constant s0 .f32 0x3F800000#32)))))
    = mulf agg (broadcastInDim sNW d2 h2 (broadcastInDim sN1 d1 h1
      (Host.divf (broadcastInDim sN d0N h0N (constant s0 .f32 0x3F800000#32))
        (maximumf (Host.scatterAdd sc (broadcastInDim sN d0N h0N (constant s0 .f32 0x00000000#32)) idx
            (broadcastInDim sE d0E h0E (constant s0 .f32 0x3F800000#32)))
          (broadcastInDim sN d0N h0N (constant s0 .f32 0x3F800000#32)))))) := by
  obtain ⟨π, hπ⟩ := bcast2_reads h1 h2
  funext i
  show Ideal.div (agg i) (broadcastInDim sNW d2 h2 (broadcastInDim sN1 d1 h1 _) i)
    = agg i * broadcastInDim sNW d2 h2 (broadcastInDim sN1 d1 h1 _) i
  rw [hπ, hπ]
  obtain ⟨r, hr, hc⟩ := count_real sc idx (broadcastInDim sN d0N h0N (constant s0 .f32 0x00000000#32))
    (broadcastInDim sN d0N h0N (constant s0 .f32 0x3F800000#32)) (broadcastInDim sE d0E h0E (constant s0 .f32 0x3F800000#32))
    (fun _ => Cert.LibConsts.ofBits_zero) (fun _ => Cert.LibConsts.ofBits_one) (fun _ => Cert.LibConsts.ofBits_one) (π i)
  show Ideal.div (agg i) _ = agg i * Ideal.div (Ideal.ofBits .f32 0x3F800000#32) _
  rw [hc, Cert.LibConsts.ofBits_one, Ideal.div_coe hr, Ideal.div_coe hr, one_mul]

end Cert.Sage

end
-- ==== Proof.LibSageHost.lean ====
/-
  The host's spelling of a mean-aggregating graph layer with the bias added LAST:

      max ((A · Wl + X · Wr) + b, 0),

  the two products as dot_general over the shared axis, the bias a length-N vector laid out as one row and repeated down
  the rows, the positive part against a splat of zero. Entry (r, j) is the layer's entry `layerAt A X Wl Wr b r j`: each
  product at (r, j) is the sum over k of the left operand at (r, k) times the right at (k, j), the bias row read at
  (r, j) is b j, and the zero word is the number 0. The grouping of the two additions is the one the entry is written
  with, so no law of the extended reals is used. For any extents.
-/
import Idealize.ShloMosaic.PureOps.Ideal
import Idealize.ShloMosaic.PureOps.Ideal.Laws
import Idealize.ShloMosaic.Lib.ValueIdx
import proofs.«140270_j14499809592153_1_alg».proof.Proof.LibSage

noncomputable section

namespace Cert.Sage

open Idealize.ShloMosaic Idealize.ShloMosaic.ValueIdx
open scoped BigOperators

variable {M K N : Nat}

section HostBiasLast

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (h1 : (⟨1, ![N]⟩ : Shape).BroadcastsInDim ⟨2, ![1, N]⟩ ![1])
  (h2 : (⟨2, ![1, N]⟩ : Shape).BroadcastsInDim ⟨2, ![M, N]⟩ ![0, 1])
  (h0 : (⟨0, ![]⟩ : Shape).BroadcastsInDim ⟨2, ![M, N]⟩ ![])

include hlc hrc hln hrn hlb hrb in
/-- (A · Wl + X · Wr) + b, then the positive part: the layer, entry by entry. -/
theorem host_layer_bias_last (A X : FVec Ideal ⟨2, ![M, K]⟩ .f32) (Wl Wr : FVec Ideal ⟨2, ![K, N]⟩ .f32)
    (bv : FVec Ideal ⟨1, ![N]⟩ .f32) :
    maximumf (addf (addf (Host.dotGeneral d none A Wl) (Host.dotGeneral d none X Wr))
        (broadcastInDim ⟨2, ![M, N]⟩ ![0, 1] h2 (broadcastInDim ⟨2, ![1, N]⟩ ![1] h1 bv)))
      (broadcastInDim ⟨2, ![M, N]⟩ ![] h0 (constant ⟨0, ![]⟩ .f32 0x00000000#32))
    = layerFn A X Wl Wr (fun j => bv (ix1 j)) := by
  funext i
  obtain ⟨r, j, rfl⟩ : ∃ (r : Fin M) (j : Fin N), i = ix2 r j := ⟨i 0, i 1, eq_ix2 i⟩
  show max ((Host.dotGeneral d none A Wl (ix2 r j) + Host.dotGeneral d none X Wr (ix2 r j))
      + broadcastInDim ⟨2, ![M, N]⟩ ![0, 1] h2 (broadcastInDim ⟨2, ![1, N]⟩ ![1] h1 bv) (ix2 r j))
      (Ideal.ofBits .f32 0x00000000#32) = layerAt A X Wl Wr (fun j => bv (ix1 j)) r j
  rw [Cert.Lib.dotGeneral_rc_apply d hlc hrc hln hrn hlb hrb, Cert.Lib.dotGeneral_rc_apply d hlc hrc hln hrn hlb hrb,
    bias_apply, Cert.LibConsts.ofBits_zero]
  rfl

end HostBiasLast

end Cert.Sage

end
-- ==== Proof.RefLayer.lean ====
/-
  What the reference computes, as one layer.

  The reference first forms, for every node n, the mean of the feature rows x[src e] over the edges e with dst e = n
  (the sum scattered onto n, divided by max (number of such edges, 1)); call that array the neighbour mean. Its result
  is then  max ((mean · W_l + x · W_r) + b, 0),  entry by entry the layer `Cert.Sage.layerFn` of the neighbour mean, x,
  the two weight matrices and the bias. The neighbour mean is kept as ONE named function of x and the edge list
  (`neighbourMean`): nothing below looks inside it.
-/
import proofs.«140270_j14499809592153_1_alg».proof.Proof.Gen.ReferenceIdeal.Read
import proofs.«140270_j14499809592153_1_alg».proof.Proof.LibSageHost

noncomputable section

namespace Cert.ReferenceIdeal.RefValue

open Cert.ReferenceIdeal Cert.ReferenceIdeal.Gen Cert.ReferenceIdeal.Read
open Idealize.ShloMosaic Idealize.ShloMosaic.ValueIdx

/-- The neighbour mean: row n is the sum of the rows x[src e] over the edges e into n, divided by max (in-degree n, 1). -/
abbrev neighbourMean (x : (⟨S50000x128, .f32⟩ : BufTy).Contents (Elt Ideal)) (e : (⟨S2x600000, .i32⟩ : BufTy).Contents (Elt Ideal)) :
    (⟨S50000x128, .f32⟩ : BufTy).Contents (Elt Ideal) :=
  val_main_v22 (F := Ideal) x e

/-- The reference's result is the layer of the neighbour mean and x. -/
theorem result_eq (x : (⟨S50000x128, .f32⟩ : BufTy).Contents (Elt Ideal)) (e : (⟨S2x600000, .i32⟩ : BufTy).Contents (Elt Ideal))
    (wl wr : (⟨S128x128, .f32⟩ : BufTy).Contents (Elt Ideal)) (b : (⟨S128, .f32⟩ : BufTy).Contents (Elt Ideal)) :
    val_main_v29 (F := Ideal) x e wl wr b
      = Cert.Sage.layerFn (M := 50000) (K := 128) (N := 128) (neighbourMean x e) x wl wr (fun j => b (ix1 j)) := by
  unfold val_main_v29 val_main_v28 val_main_v25 val_main_v23 val_main_v24 val_main_v27 val_main_v26 val_main_call0_v0
    val_main_call0_cst
  exact Cert.Sage.host_layer_bias_last dot_S50000x128_S128x128_S50000x128_1_0_0_1_n_n rfl rfl rfl rfl rfl rfl
    bcast_S128_S1x128_1 bcast_S1x128_S50000x128_0_1 bcast_S_S50000x128 (neighbourMean x e) x wl wr b

end Cert.ReferenceIdeal.RefValue

end
-- ==== Proof.Body.lean ====
/-
  What the kernel's body stores, as one layer of its loaded blocks.

  At a grid point the body loads a block of 2000 rows of the neighbour mean and of x, the two 128 × 128 weight matrices
  and the bias as one row, narrows the four matrix operands to sixteen bits (no change over the extended reals),
  multiplies each pair into a zero accumulator, adds the two products, adds the bias row repeated down the rows, and
  takes the positive part. Entry (r, j) of what it stores is therefore the layer's entry of the loaded blocks,
  `Cert.Sage.layerAt` at (r, j): the two casts to the same shape are the identity, the rest is the block spelling of
  the layer.
-/
import proofs.«140270_j14499809592153_1_alg».proof.Proof.Gen.KernelIdeal.Skeleton
import proofs.«140270_j14499809592153_1_alg».proof.Proof.LibSage
import Idealize.ShloMosaic.Lib.Pipeline.Value

noncomputable section

namespace Cert.KernelIdeal.Hand

open Cert.KernelIdeal Cert.KernelIdeal.Gen
open Idealize.ShloMosaic Idealize.ShloMosaic.ValueIdx

/-- The stored value is the layer of the loaded blocks; the bias row is read at its one row. -/
theorem pay_eq (a x : Vec Ideal S2000x128 .f32) (wl wr : Vec Ideal S128x128 .f32) (b : Vec Ideal S1x128 .f32) :
    k0_pay1 (F := Ideal) a x wl wr b
      = Cert.Sage.layerFn (M := 2000) (K := 128) (N := 128) a x wl wr (fun j => b (ix2 (0 : Fin 1) j)) := by
  unfold k0_pay1
  dsimp only
  rw [shapeCast_self, shapeCast_self]
  exact Cert.Sage.block_layer dot_S2000x128_S128x128_S2000x128_1_0_0_1_n_n rfl rfl rfl rfl rfl rfl
    broadcasts_S1x128_S2000x128 bitsLt_bf16_f32 a x wl wr b

end Cert.KernelIdeal.Hand

end
-- ==== Proof.KernelValue.lean ====
/-
  The kernel's run, read: its result array is the layer of the neighbour mean and x.

  The region is entered with five arrays in place: the neighbour mean (written by the host operations before the
  region), x, the two weight matrices, and the bias laid out as one row. Its grid has 25 points; point t works on rows
  2000 t … 2000 t + 1999 of the neighbour mean and of x and on the whole of the three small arrays, and writes rows
  2000 t … 2000 t + 1999 of the result.

  * Each input block read at an entry is the array read at the matching entry (`meanBlk_apply` … `biasBlk_apply`):
    row r of a row block at point t is row 2000 t + r of the array; the small arrays' one block is the array.
  * A layer's entry depends on one row of the neighbour mean and of x, so entry (r, j) of the block the body stores at
    point t is entry (2000 t + r, j) of the layer of the whole arrays (`block_entry`), and what point t writes back is
    block t of that layer (`flushed_eq`).
  * Every row n lies in the block of point n / 2000, so the 25 blocks cover the result array (`cover`), which
    therefore ends holding the layer of the region-entry arrays (`final`).
  * The region-entry arrays in terms of the launch memory: x and the weights are untouched arguments; the bias row is
    the bias vector reshaped, read at (0, j) as its entry j; the neighbour mean is the host operations' term, the same
    operations the reference performs (`mean_eq`).
-/
import proofs.«140270_j14499809592153_1_alg».proof.Proof.Gen.KernelIdeal.Value
import proofs.«140270_j14499809592153_1_alg».proof.Proof.Gen.ReferenceIdeal.Read
import proofs.«140270_j14499809592153_1_alg».proof.Proof.Body
import proofs.«140270_j14499809592153_1_alg».proof.Proof.RefLayer
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them, and a point's blocks -/

abbrev meanArr (c : Dev nD) : FVec Ideal S50000x128 .f32 := V m c main_v22
abbrev xArr (c : Dev nD) : FVec Ideal S50000x128 .f32 := V m c main_arg0
abbrev wlArr (c : Dev nD) : FVec Ideal S128x128 .f32 := V m c main_arg2
abbrev wrArr (c : Dev nD) : FVec Ideal S128x128 .f32 := V m c main_arg3
abbrev biasRow (c : Dev nD) : FVec Ideal S1x128 .f32 := V m c main_v23

abbrev meanBlk (c : Dev nD) (t : Fin cfg0.N) : FVec Ideal S2000x128 .f32 := iblk m c 0 t
abbrev xBlk (c : Dev nD) (t : Fin cfg0.N) : FVec Ideal S2000x128 .f32 := iblk m c 1 t
abbrev wlBlk (c : Dev nD) (t : Fin cfg0.N) : FVec Ideal S128x128 .f32 := iblk m c 2 t
abbrev wrBlk (c : Dev nD) (t : Fin cfg0.N) : FVec Ideal S128x128 .f32 := iblk m c 3 t
abbrev biasBlk (c : Dev nD) (t : Fin cfg0.N) : FVec Ideal S1x128 .f32 := iblk m c 4 t

/-- The layer of the region-entry arrays. -/
abbrev layerArr (c : Dev nD) : FVec Ideal S50000x128 .f32 :=
  Cert.Sage.layerFn (M := 50000) (K := 128) (N := 128) (meanArr m c) (xArr m c) (wlArr m c) (wrArr m c)
    (fun j => biasRow m c (ix2 (0 : Fin 1) j))

/-- The block indices, decided over the 25 points: the row windows and the result are at block (t, 0), the small arrays at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each block read at an entry -/

theorem meanBlk_apply (c : Dev nD) (t : Fin cfg0.N) (r : Fin 2000) (k : Fin 128) (n : Fin 50000)
    (hn : n.val = t.val * 2000 + r.val) : meanBlk m c t (ix2 r k) = meanArr m c (ix2 n k) := by
  obtain ⟨e0, e1, -⟩ := idx_facts t
  show V m c main_v22 (((cfg0.win 0).blk t).view.emb (ix2 r k)) = V m c main_v22 (ix2 n k)
  congr 1
  funext a
  apply Fin.ext
  match a with
  | ⟨0, _⟩ => show win0_0.index t (0 : Fin 2) * 2000 + 1 * r.val = n.val; omega
  | ⟨1, _⟩ => show win0_0.index t (1 : Fin 2) * 128 + 1 * k.val = k.val; omega

theorem xBlk_apply (c : Dev nD) (t : Fin cfg0.N) (r : Fin 2000) (k : Fin 128) (n : Fin 50000)
    (hn : n.val = t.val * 2000 + r.val) : xBlk m c t (ix2 r k) = xArr m c (ix2 n k) := by
  obtain ⟨-, -, e0, e1, -⟩ := idx_facts t
  show V m c main_arg0 (((cfg0.win 1).blk t).view.emb (ix2 r k)) = V m c main_arg0 (ix2 n k)
  congr 1
  funext a
  apply Fin.ext
  match a with
  | ⟨0, _⟩ => show win0_1.index t (0 : Fin 2) * 2000 + 1 * r.val = n.val; omega
  | ⟨1, _⟩ => show win0_1.index t (1 : Fin 2) * 128 + 1 * k.val = k.val; omega

theorem wlBlk_apply (c : Dev nD) (t : Fin cfg0.N) (k j : Fin 128) : wlBlk m c t (ix2 k j) = wlArr m c (ix2 k j) := by
  obtain ⟨-, -, -, -, e0, e1, -⟩ := idx_facts t
  show V m c main_arg2 (((cfg0.win 2).blk t).view.emb (ix2 k j)) = V m c main_arg2 (ix2 k j)
  congr 1
  funext a
  apply Fin.ext
  match a with
  | ⟨0, _⟩ => show win0_2.index t (0 : Fin 2) * 128 + 1 * k.val = k.val; omega
  | ⟨1, _⟩ => show win0_2.index t (1 : Fin 2) * 128 + 1 * j.val = j.val; omega

theorem wrBlk_apply (c : Dev nD) (t : Fin cfg0.N) (k j : Fin 128) : wrBlk m c t (ix2 k j) = wrArr m c (ix2 k j) := by
  obtain ⟨-, -, -, -, -, -, e0, e1, -⟩ := idx_facts t
  show V m c main_arg3 (((cfg0.win 3).blk t).view.emb (ix2 k j)) = V m c main_arg3 (ix2 k j)
  congr 1
  funext a
  apply Fin.ext
  match a with
  | ⟨0, _⟩ => show win0_3.index t (0 : Fin 2) * 128 + 1 * k.val = k.val; omega
  | ⟨1, _⟩ => show win0_3.index t (1 : Fin 2) * 128 + 1 * j.val = j.val; omega

theorem biasBlk_apply (c : Dev nD) (t : Fin cfg0.N) (j : Fin 128) :
    biasBlk m c t (ix2 (0 : Fin 1) j) = biasRow m c (ix2 (0 : Fin 1) j) := by
  obtain ⟨-, -, -, -, -, -, -, -, e0, e1, -⟩ := idx_facts t
  show V m c main_v23 (((cfg0.win 4).blk t).view.emb (ix2 (0 : Fin 1) j)) = V m c main_v23 (ix2 (0 : Fin 1) j)
  congr 1
  funext a
  apply Fin.ext
  match a with
  | ⟨0, _⟩ => show win0_4.index t (0 : Fin 2) * 1 + 1 * 0 = 0; omega
  | ⟨1, _⟩ => show win0_4.index t (1 : Fin 2) * 128 + 1 * j.val = j.val; omega

/-! ## What a point writes back -/

/-- Entry (r, j) of the layer of point t's blocks is entry (2000 t + r, j) of the layer of the arrays. -/
theorem block_entry (c : Dev nD) (t : Fin cfg0.N) (r : Fin 2000) (j : Fin 128) (n : Fin 50000) (j' : Fin 128)
    (hn : n.val = t.val * 2000 + r.val) (hj : j'.val = j.val) :
    Cert.Sage.layerAt (M := 2000) (K := 128) (N := 128) (meanBlk m c t) (xBlk m c t) (wlBlk m c t) (wrBlk m c t)
        (fun q => biasBlk m c t (ix2 (0 : Fin 1) q)) r j
      = Cert.Sage.layerAt (M := 50000) (K := 128) (N := 128) (meanArr m c) (xArr m c) (wlArr m c) (wrArr m c)
        (fun q => biasRow m c (ix2 (0 : Fin 1) q)) n j' := by
  obtain rfl : j' = j := Fin.ext hj
  exact Cert.Sage.layerAt_row (meanBlk m c t) (xBlk m c t) (meanArr m c) (xArr m c) (wlBlk m c t) (wrBlk m c t)
    (wlArr m c) (wrArr m c) (fun q => biasBlk m c t (ix2 (0 : Fin 1) q)) (fun q => biasRow m c (ix2 (0 : Fin 1) q)) r n
    (fun k => meanBlk_apply m c t r k n hn) (fun k => xBlk_apply m c t r k n hn)
    (fun k q => wlBlk_apply m c t k q) (fun k q => wrBlk_apply m c t k q) (fun q => biasBlk_apply m c t q) j'

/-- What point t writes back is block t of the layer of the arrays. -/
theorem flushed_eq (c : Dev nD) (t : Fin cfg0.N) :
    (dats m 0 c).flushed 5 t = ((cfg0.win 5).blk t).view.read (Elt Ideal) (layerArr m c) := by
  rw [Value.flushed5]
  unfold out0_5
  rw [View.canon_unit_zero hz]
  simp only [View.ld_unit_zero (S := S2000x128) hz, View.ld_unit_zero (S := S128x128) hz,
    View.ld_unit_zero (S := S1x128) hz]
  rw [pay_eq]
  obtain ⟨-, -, -, -, -, -, -, -, -, -, f0, f1⟩ := idx_facts t
  funext y
  have hy0 : (y 0).val < 2000 := (y 0).isLt
  have hy1 : (y 1).val < 128 := (y 1).isLt
  have hn : ((((cfg0.win 5).blk t).view.emb y) 0).val = t.val * 2000 + (y 0).val := by
    show win0_5.index t (0 : Fin 2) * 2000 + 1 * (y 0).val = _; omega
  have hj : ((((cfg0.win 5).blk t).view.emb y) 1).val = (y 1).val := by
    show win0_5.index t (1 : Fin 2) * 128 + 1 * (y 1).val = _; omega
  exact block_entry m c t (y 0) (y 1) _ _ hn hj

/-! ## The result array -/

/-- An index is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v24).slice (win0_5.rect t)).set ↔ _
  rw [View.set_slice_whole, Rect.mem_set_unit]
  exact Iff.rfl

/-- Row n lies in the block of point n / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, f0, f1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The result array ends holding the layer of the region-entry arrays. -/
theorem final (c : Dev nD) : (dats m 0 c).arrAt 5 cfg0.N = layerArr m c :=
  (dats m 0 c).arrAt_eq_of_cover 5 (layerArr m c) (fun t _ => flushed_eq m c t) cover

/-! ## The region-entry arrays in terms of the launch memory -/

/-- The neighbour mean the region finds is the host operations' term: the operations the reference performs. -/
theorem mean_eq (c : Dev nD) :
    meanArr m c = Cert.ReferenceIdeal.RefValue.neighbourMean (m ((c : Thread nD τ).loc main_arg0)) (m ((c : Thread nD τ).loc main_arg1)) := by
  show (V m c main_v22 : S50000x128.Idx → EReal) = _
  dsimp only [V, hostOps0]
  after_results
  rfl

/-- The bias row the region finds, at (0, j), is entry j of the bias vector. -/
theorem biasRow_apply (c : Dev nD) (j : Fin 128) :
    biasRow m c (ix2 (0 : Fin 1) j) = (m ((c : Thread nD τ).loc main_arg4) : S128.Idx → EReal) (ix1 j) := by
  have e : (V m c main_v23 : S1x128.Idx → EReal)
      = shapeCast S1x128 (m ((c : Thread nD τ).loc main_arg4) : S128.Idx → EReal) shapeCasts_S128_S1x128 := by
    dsimp only [V, hostOps0]
    after_results
    rfl
  show (V m c main_v23 : S1x128.Idx → EReal) (ix2 (0 : Fin 1) j) = _
  rw [e]
  exact shapeCast_apply _ shapeCasts_S128_S1x128 (ix2 (0 : Fin 1) j) (ix1 j) (by
    rw [Shape.rowMajor_val_two, Shape.rowMajor_val_one]
    show j.val = 0 * 128 + j.val
    omega)

/-- The layer of the launch memory's arrays: the neighbour mean of x and the edge list, x, the weights, the bias. -/
abbrev result (c : Dev nD) : FVec Ideal S50000x128 .f32 :=
  Cert.Sage.layerFn (M := 50000) (K := 128) (N := 128)
    (Cert.ReferenceIdeal.RefValue.neighbourMean (m ((c : Thread nD τ).loc main_arg0)) (m ((c : Thread nD τ).loc main_arg1)))
    (m ((c : Thread nD τ).loc main_arg0)) (m ((c : Thread nD τ).loc main_arg2)) (m ((c : Thread nD τ).loc main_arg3))
    (fun j => (m ((c : Thread nD τ).loc main_arg4) : S128.Idx → EReal) (ix1 j))

theorem layerArr_eq (c : Dev nD) : layerArr m c = result m c := by
  show Cert.Sage.layerFn (M := 50000) (K := 128) (N := 128) (meanArr m c) (V m c main_arg0) (V m c main_arg2) (V m c main_arg3)
    (fun j => biasRow m c (ix2 (0 : Fin 1) j)) = _
  rw [mean_eq, V_main_arg0, V_main_arg2, V_main_arg3]
  exact congrArg _ (funext fun j => biasRow_apply m c j)

/-! ## The run, read -/

/-- Every weakly fair execution ends with the result array at the layer of the launch memory's arrays, the arguments
    unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (layerArr_eq m c)), (h c).2⟩)
    (Value.run_blocks m ρ)

end Cert.KernelIdeal.Hand

end
-- ==== Proof.lean ====
/-
  One mean-aggregating graph layer, as a Pallas kernel and as plain jnp: both compute, for every node n and feature j,

      max ((Σₖ mean[n, k] · W_l[k, j] + Σₖ x[n, k] · W_r[k, j]) + b[j], 0),

  where mean[n, :] is the sum of the rows x[src e] over the edges e with dst e = n, divided by max (in-degree n, 1).

  Both programs form the neighbour mean with the SAME host operations (two slices of the edge list, the wrap of negative
  indices, a gather of rows, two scatter-adds, the guarded division), so it enters the proof as one named function of x
  and the edge list and is never opened. The kernel then tiles the rows in 25 blocks of 2000 and computes each block of
  the layer with its operands narrowed to sixteen bits (no change over the extended reals) and its two products
  accumulated into zeros; the reference computes the whole layer with two dot_generals. A product read at (r, j) is the
  same sum over k on both sides, the additions are grouped the same way, the zero of the positive part is the same
  word: the two results are one function of the arguments, and no law that needs finite inputs is used.

  * frames of the two kernel programs: the generated frame certificates;
  * frame of the reference: its generated run with the result dropped;
  * preserves: the idealization rewrote nothing;
  * algebraic: the kernel's run read as the layer (Proof/KernelValue.lean, over Proof/Body.lean), the reference's run read
    as the same layer (Proof/RefLayer.lean), the arguments' agreement rewritten.
-/
import proofs.«140270_j14499809592153_1_alg».proof.Defs
import proofs.«140270_j14499809592153_1_alg».proof.Proof.Gen.Kernel
import proofs.«140270_j14499809592153_1_alg».proof.Proof.Gen.Kernel.Skeleton
import proofs.«140270_j14499809592153_1_alg».proof.Proof.Gen.Kernel.Launch
import proofs.«140270_j14499809592153_1_alg».proof.Proof.Gen.Kernel.Points
import proofs.«140270_j14499809592153_1_alg».proof.Proof.Gen.Kernel.Frame
import proofs.«140270_j14499809592153_1_alg».proof.Proof.Gen.KernelIdeal
import proofs.«140270_j14499809592153_1_alg».proof.Proof.Gen.KernelIdeal.Skeleton
import proofs.«140270_j14499809592153_1_alg».proof.Proof.Gen.KernelIdeal.Launch
import proofs.«140270_j14499809592153_1_alg».proof.Proof.Gen.KernelIdeal.Points
import proofs.«140270_j14499809592153_1_alg».proof.Proof.Gen.KernelIdeal.Frame
import proofs.«140270_j14499809592153_1_alg».proof.Proof.Gen.ReferenceIdeal
import proofs.«140270_j14499809592153_1_alg».proof.Proof.Gen.Pre_finite_inputs
import proofs.«140270_j14499809592153_1_alg».proof.Proof.Gen.KernelIdeal.Value
import proofs.«140270_j14499809592153_1_alg».proof.Proof.Gen.ReferenceIdeal.Run
import proofs.«140270_j14499809592153_1_alg».proof.Proof.Gen.ReferenceIdeal.Read
import proofs.«140270_j14499809592153_1_alg».proof.Proof.RefLayer
import proofs.«140270_j14499809592153_1_alg».proof.Proof.KernelValue
import Idealize.ShloMosaic.Adequacy
import Idealize.ShloMosaic.Init

noncomputable section

namespace Cert.Proof

open Idealize.ShloMosaic Idealize.SL.Sem

section Claims

variable [hPre : Cert.Pre_finite_inputs.Facts]

theorem frame_kernel [Cert.Kernel.Facts] : Cert.frame_Kernel := fun m ρ _ => Cert.Kernel.Gen.frame m ρ

theorem frame_kernelIdeal [Cert.KernelIdeal.Facts] : Cert.frame_KernelIdeal := fun m ρ _ => Cert.KernelIdeal.Gen.frame m ρ

/-- The reference has no kernel: its run ends with the arguments unchanged. -/
theorem frame_reference [Cert.ReferenceIdeal.Facts] : Cert.frame_ReferenceIdeal := fun m ρ _ =>
  (θ_run Cert.ReferenceIdeal.defs _ _).mono (fun _ h c => (h c).2) (Cert.ReferenceIdeal.Value.run (F := Ideal) m ρ)

/-- Both runs end with the result array at the layer of the neighbour mean, x, the weights and the bias of the kernel's
    launch memory: the kernel's by its run read block by block, the reference's by its run read operation by operation,
    its arguments being the kernel's. -/
theorem algebraic [Cert.KernelIdeal.Facts] [Cert.ReferenceIdeal.Facts] : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2.1, (hagree c).2.2.2.2]

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
